-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_16129" .f32 0x38820610#32 ((1 / 16129 : ℝ) : EReal)
  ∧ IdealRules.named_const.Statement Cert.KernelIdeal.κ "inv_16129" .f32 0x38820610#32 ((1 / 16129 : ℝ) : EReal)
  ∧ IdealRules.named_const.Statement Cert.KernelIdeal.κ "inv_16129" .f32 0x38820610#32 ((1 / 16129 : ℝ) : EReal)
  ∧ IdealRules.named_const.Statement Cert.KernelIdeal.κ "inv_16129" .f32 0x38820610#32 ((1 / 16129 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096x4096 : Shape := ⟨2, ![4096, 4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x4096x4096 .f32) (main_arg1 : FVec F S4096x4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x4096x4096 : Shape := ⟨3, ![8, 4096, 4096]⟩
abbrev S4096x4096 : Shape := ⟨2, ![4096, 4096]⟩
abbrev S32768x4096 : Shape := ⟨2, ![32768, 4096]⟩
abbrev S_ : Shape := ⟨0, ![]⟩
abbrev S32768x1 : Shape := ⟨2, ![32768, 1]⟩
abbrev S512x4096 : Shape := ⟨2, ![512, 4096]⟩
abbrev S512x1 : Shape := ⟨2, ![512, 1]⟩
abbrev S128x4096 : Shape := ⟨2, ![128, 4096]⟩
abbrev S128 : Shape := ⟨1, ![128]⟩
abbrev S128x1 : Shape := ⟨2, ![128, 1]⟩
abbrev S1024x4096 : Shape := ⟨2, ![1024, 4096]⟩
abbrev S4096x512 : Shape := ⟨2, ![4096, 512]⟩
abbrev S1024x1 : Shape := ⟨2, ![1024, 1]⟩
abbrev S1024x512 : Shape := ⟨2, ![1024, 512]⟩

abbrev nBuf : Space → Nat
  | .hbm => 15
  | .vmem => 14
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S32768x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S32768x4096, .bf16⟩
  | .hbm, ⟨12, _⟩ => ⟨S32768x1, .f32⟩
  | .hbm, ⟨13, _⟩ => ⟨S32768x4096, .f32⟩
  | .hbm, ⟨14, _⟩ => ⟨S8x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S1024x4096, .bf16⟩
  | .local _ .vmem, ⟨7, _⟩ => ⟨S1024x4096, .bf16⟩
  | .local _ .vmem, ⟨8, _⟩ => ⟨S4096x512, .bf16⟩
  | .local _ .vmem, ⟨9, _⟩ => ⟨S4096x512, .bf16⟩
  | .local _ .vmem, ⟨10, _⟩ => ⟨S1024x1, .f32⟩
  | .local _ .vmem, ⟨11, _⟩ => ⟨S1024x1, .f32⟩
  | .local _ .vmem, ⟨12, _⟩ => ⟨S1024x512, .f32⟩
  | .local _ .vmem, ⟨13, _⟩ => ⟨S1024x512, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 2 → Nat :=
  let c128_i32 : BitVec 32 := 128#32
  let v0 : BitVec 32 := Scalar.muli c0_i32 c128_i32
  let v1 : BitVec 32 := v0
  let v2 : Index := Scalar.indexCast v1
  let c0 : Index := 0#32
  ![v2.toNat, 0]
def k0_off2 (c0_i32 : BitVec 32) : Fin 2 → Nat :=
  let c128_i32 : BitVec 32 := 128#32
  let v0 : BitVec 32 := Scalar.muli c0_i32 c128_i32
  let v1 : BitVec 32 := v0
  let v35 : Index := Scalar.indexCast v1
  let c0_9 : Index := 0#32
  ![v35.toNat, 0]
def k0_mult2 : BitVec 32 :=
  let c1_i32 : BitVec 32 := 1#32
  let c128_i32_10 : BitVec 32 := 128#32
  let v37 : BitVec 32 := Scalar.muli c1_i32 c128_i32_10
  v37
def k0_mult3 : BitVec 32 :=
  let c2_i32 : BitVec 32 := 2#32
  let c128_i32_23 : BitVec 32 := 128#32
  let v74 : BitVec 32 := Scalar.muli c2_i32 c128_i32_23
  v74
def k0_mult4 : BitVec 32 :=
  let c3_i32 : BitVec 32 := 3#32
  let c128_i32_36 : BitVec 32 := 128#32
  let v111 : BitVec 32 := Scalar.muli c3_i32 c128_i32_36
  v111
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x4096x4096_S32768x4096 : S8x4096x4096.ShapeCasts S32768x4096
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  h_S128x1 : 0 < S128x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  shapeCasts_S32768x4096_S8x4096x4096 : S32768x4096.ShapeCasts S8x4096x4096
  dot_S1024x4096_S4096x512_S1024x512_1_0_0_1_n_n_wf : DotDims.WF S1024x4096 S4096x512 S1024x512 [1] [0] [0] [1] [] []
  hrank0 : 0 < grid0.rank
  k0_mult1_dvd : 128 ∣ k0_mult1.toNat
  k0_off1_inb : ∀ (r : Fin 4), ∀ a, (k0_off1 (BitVec.ofNat 32 r.val)) a + S128x4096.size a ≤ S512x4096.size a
  k0_off1_packedbf16 : ∀ (r : Fin 4), (Rect.unit (s := S512x4096) (k0_off1 (BitVec.ofNat 32 r.val)) S128x4096.size (k0_off1_inb r)).PackedRows (EltTy.packing .bf16)
  k0_off2_inb : ∀ (r : Fin 4), ∀ a, (k0_off2 (BitVec.ofNat 32 r.val)) a + S128x1.size a ≤ S512x1.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .bf16 = 32 ∨ (Rect.block (s := S32768x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S32768x4096.size a
  hwx1_0 : ∀ i : grid1.Coords, EltTy.bits .bf16 = 32 ∨ (Rect.block (s := S32768x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x4096.size a
  hwx1_3 : ∀ i : grid1.Coords, EltTy.bits .f32 = 32 ∨ (Rect.block (s := S32768x4096) S1024x512.size (cc1_transform_3 i) (hinb1_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7_0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x4096 : Shape := ⟨3, ![8, 4096, 4096]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S8x4096x4096, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_call3_v0 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_cst_10 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x4096_0_1_2 : S8x4096x1.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S4096x4096_S_d0_1 : S4096x4096.ReducesTo [0, 1] S_
  bcast_S_S4096x4096 : S_.BroadcastsInDim S4096x4096 (![] : Fin 0 → Fin S4096x4096.rank)
  dot_S8x4096x4096_S4096x4096_S8x4096x4096_2_0_01_1_n_n_wf : DotDims.WF S8x4096x4096 S4096x4096 S8x4096x4096 [2] [0] [0, 1] [1] [] []

variable [Facts₀]

def dot_S8x4096x4096_S4096x4096_S8x4096x4096_2_0_01_1_n_n : DotDims S8x4096x4096 S4096x4096 S8x4096x4096 where
  lhsContracting := [2]
  rhsContracting := [0]
  lhsNonContracting := [0, 1]
  rhsNonContracting := [1]
  lhsBatch := []
  rhsBatch := []
  wf := dot_S8x4096x4096_S4096x4096_S8x4096x4096_2_0_01_1_n_n_wf

class Facts : Prop extends Facts₀ where

variable [Facts]
-- ==== Proof.LiteralValues.lean ====
/-
  The float literals both programs spell, as the extended reals their bit patterns denote.  Everything else in
  the proof reads a literal through these equations and never opens a pattern again.

  The patterns: +0.0; 4096.0 (a row's length, the divisor of the mean of squares); 9.99999974e-6 (the f32 nearest
  to 1e-5: the epsilon under the reciprocal square root and the floor of both scales) whose exact value is
  10995116 / 2^40; 127.0 and -128.0 (the quantisation range); 16777216.0 = 2^24 (the number of weights, the
  divisor of both weight means); and -infinity (the start of a row's running maximum), the bottom element.
-/
import Idealize.ShloMosaic.PureOps.Ideal

noncomputable section

namespace Cert.BitLinear

open Idealize.ShloMosaic

/-- The epsilon's exact value: 10995116 / 2^40. -/
def epsR : ℝ := 10995116 / 1099511627776

theorem epsR_pos : 0 < epsR := by unfold epsR; norm_num

theorem ofBits_row_len : Ideal.ofBits .f32 0x45800000#32 = ((4096 : ℝ) : EReal) := by
  simp [Ideal.ofBits, Ideal.ieee, -EReal.coe_mul]; norm_num

theorem ofBits_eps : Ideal.ofBits .f32 0x3727C5AC#32 = ((epsR : ℝ) : EReal) := by
  simp [Ideal.ofBits, Ideal.ieee, -EReal.coe_mul, epsR]; norm_num

theorem ofBits_qmax : Ideal.ofBits .f32 0x42FE0000#32 = ((127 : ℝ) : EReal) := by
  simp [Ideal.ofBits, Ideal.ieee, -EReal.coe_mul]; norm_num

theorem ofBits_qmin : Ideal.ofBits .f32 0xC3000000#32 = ((-128 : ℝ) : EReal) := by
  simp [Ideal.ofBits, Ideal.ieee, -EReal.coe_mul]; norm_num

theorem ofBits_weight_count : Ideal.ofBits .f32 0x4B800000#32 = ((16777216 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.BitLinear

end
-- ==== Proof.RowSpec.lean ====
/-
  One row of the quantised linear layer, as mathematics on the extended reals.

  For a row v of 4096 entries:
    rowRs v    = 1 / sqrt( (sum_k v_k^2) / 4096 + eps )            the RMS normaliser
    rowNorm v  = v_k * rowRs v                                      the normalised row
    rowPeak v  = max( max_k |rowNorm v k| , eps )                   its largest magnitude, floored at eps
    rowScale v = 127 / rowPeak v                                    the activation scale
    rowQ v k   = clip( round-half-even( rowNorm v k * rowScale v ), -128, 127 )   the integer code
    rowInv2 v  = rowPeak v ^ 2 * (1 / 16129)                        = 1 / rowScale v ^ 2, since 16129 = 127^2

  Against a column w of weights (signs, in the application) and a positive weight scale ws the layer's output is
  written in two ways:
    outK v w    = ( sum_d rowQ v d * w d ) * rowInv2 v                              integer product, one rescale
    outR v w ws = ( ( sum_d (rowQ v d / rowScale v) * (w d * ws) ) / ws ) / rowScale v   dequantise, multiply, undo
  They agree whenever the row is finite, the weights are finite and ws is a positive real: then rowPeak is a
  positive real a, rowScale = 127 / a, every factor is a real number, ws cancels, and dividing twice by 127 / a
  is multiplying by a^2 / 127^2 = a^2 / 16129.  Finiteness is needed: on the extended reals a division does not
  cancel at an infinity.
-/
import Idealize.ShloMosaic.PureOps.Ideal
import proofs.«419115_j29557964931127_3_alg».proof.Proof.LiteralValues

noncomputable section

namespace Cert.BitLinear

open Idealize.ShloMosaic

/-- The coercion of the reals into the extended reals commutes with a finite sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- An extended real between two reals is a real. -/
theorem real_of_between {x : EReal} {lo hi : ℝ} (h1 : (lo : EReal) ≤ x) (h2 : x ≤ (hi : EReal)) :
    ∃ r : ℝ, x = r := by
  have hb : x ≠ ⊥ := fun h => by rw [h] at h1; exact absurd h1 (not_le.mpr (EReal.bot_lt_coe lo))
  have ht : x ≠ ⊤ := fun h => by rw [h] at h2; exact absurd h2 (not_le.mpr (EReal.coe_lt_top hi))
  exact ⟨x.toReal, (EReal.coe_toReal ht hb).symm⟩

section Row

variable (v : Fin 4096 → EReal)

/-- The RMS normaliser of the row: 1 / sqrt(mean of squares + eps). -/
def rowRs : EReal :=
  Ideal.rsqrt (Ideal.div (∑ k, v k * v k) (Ideal.ofBits .f32 0x45800000#32) + Ideal.ofBits .f32 0x3727C5AC#32)

/-- The normalised row. -/
def rowNorm (k : Fin 4096) : EReal := v k * rowRs v

/-- The largest magnitude of the normalised row (a running maximum from -infinity), floored at eps. -/
def rowPeak : EReal :=
  max (Finset.univ.fold max (Ideal.ofBits .f32 0xFF800000#32) fun k => max (rowNorm v k) (-(rowNorm v k)))
    (Ideal.ofBits .f32 0x3727C5AC#32)

/-- The activation scale 127 / peak. -/
def rowScale : EReal := Ideal.div (Ideal.ofBits .f32 0x42FE0000#32) (rowPeak v)

/-- The integer code of an entry: scaled, rounded half to even, clipped to [-128, 127]. -/
def rowQ (k : Fin 4096) : EReal :=
  min (Ideal.ofBits .f32 0x42FE0000#32)
    (max (Ideal.ofBits .f32 0xC3000000#32) (Ideal.liftRound Ideal.roundHalfEven (rowNorm v k * rowScale v)))

/-- peak^2 / 16129, the reciprocal of the squared activation scale. -/
def rowInv2 : EReal := rowPeak v * rowPeak v * ((1 / 16129 : ℝ) : EReal)

/-- The output as an integer product rescaled once. -/
def outK (w : Fin 4096 → EReal) : EReal := (∑ d, rowQ v d * w d) * rowInv2 v

/-- The output as a product of dequantised factors with both scales undone afterwards. -/
def outR (w : Fin 4096 → EReal) (ws : EReal) : EReal :=
  Ideal.div (Ideal.div (∑ d, Ideal.div (rowQ v d) (rowScale v) * (w d * ws)) ws) (rowScale v)

/-- A code lies in [-128, 127] whatever the row holds, so it is a real number. -/
theorem rowQ_real (k : Fin 4096) : ∃ q : ℝ, rowQ v k = q := by
  unfold rowQ
  rw [ofBits_qmax, ofBits_qmin]
  refine real_of_between (lo := -128) (hi := 127) ?_ (min_le_left _ _)
  refine le_min ?_ (le_max_left _ _)
  exact EReal.coe_le_coe_iff.mpr (by norm_num)

/-- On a finite row the peak is a positive real: the mean of squares plus eps is a positive real, so the
    normaliser is a real, every normalised entry is a real, their magnitudes are bounded by their sum, and the
    floor eps is positive. -/
theorem rowPeak_real (hv : ∀ k, ∃ r : ℝ, v k = r) : ∃ a : ℝ, 0 < a ∧ rowPeak v = a := by
  choose xr hxr using hv
  -- the normaliser is a real
  have hrs : ∃ rs : ℝ, rowRs v = rs := by
    unfold rowRs
    simp only [hxr, ← EReal.coe_mul, coe_sum, ofBits_row_len, ofBits_eps,
      Ideal.div_coe (by norm_num : (4096 : ℝ) ≠ 0), ← EReal.coe_add]
    have hpos : 0 < (∑ k, xr k * xr k) * (1 / 4096) + epsR := by
      have h0 : 0 ≤ ∑ k, xr k * xr k := Finset.sum_nonneg fun k _ => mul_self_nonneg _
      have := epsR_pos
      positivity
    rw [Ideal.rsqrt_coe, if_neg (not_lt.mpr hpos.le), if_neg hpos.ne']
    exact ⟨_, rfl⟩
  obtain ⟨rs, hrs⟩ := hrs
  have hn : ∀ k, rowNorm v k = ((xr k * rs : ℝ) : EReal) := fun k => by
    unfold rowNorm; rw [hxr, hrs, EReal.coe_mul]
  -- the magnitudes are bounded by their sum
  have hub : rowPeak v ≤ ((max (∑ k, |xr k * rs|) epsR : ℝ) : EReal) := by
    unfold rowPeak
    rw [ofBits_eps, ofBits_neg_inf]
    refine max_le ?_ (EReal.coe_le_coe_iff.mpr (le_max_right _ _))
    refine (Finset.fold_max_le _).mpr ⟨bot_le, fun k _ => ?_⟩
    have hk : |xr k * rs| ≤ max (∑ k, |xr k * rs|) epsR :=
      (Finset.single_le_sum (f := fun k => |xr k * rs|) (fun _ _ => abs_nonneg _) (Finset.mem_univ k)).trans
        (le_max_left _ _)
    rw [hn, ← EReal.coe_neg]
    exact max_le (EReal.coe_le_coe_iff.mpr ((le_abs_self _).trans hk))
      (EReal.coe_le_coe_iff.mpr ((neg_le_abs _).trans hk))
  have hlb : ((epsR : ℝ) : EReal) ≤ rowPeak v := by
    unfold rowPeak; rw [ofBits_eps]; exact le_max_right _ _
  obtain ⟨a, ha⟩ := real_of_between hlb hub
  refine ⟨a, ?_, ha⟩
  rw [ha] at hlb
  exact lt_of_lt_of_le epsR_pos (EReal.coe_le_coe_iff.mp hlb)

/-- The two ways of writing the output agree on a finite row, finite weights and a positive real weight scale. -/
theorem outR_eq_outK (w : Fin 4096 → EReal) (ws : EReal) (hv : ∀ k, ∃ r : ℝ, v k = r)
    (hw : ∀ d, ∃ r : ℝ, w d = r) (hws : ∃ r : ℝ, 0 < r ∧ ws = r) : outR v w ws = outK v w := by
  obtain ⟨a, ha, hpk⟩ := rowPeak_real v hv
  choose q hq using rowQ_real v
  choose wr hwr using hw
  obtain ⟨s, hs, rfl⟩ := hws
  have hsc : rowScale v = ((127 / a : ℝ) : EReal) := by
    unfold rowScale
    rw [hpk, ofBits_qmax, Ideal.div_coe ha.ne', ← EReal.coe_mul]
    congr 1; ring
  have hne : (127 / a : ℝ) ≠ 0 := by positivity
  unfold outR outK rowInv2
  rw [hsc, hpk]
  simp only [hq, hwr, Ideal.div_coe hne, Ideal.div_coe hs.ne', ← EReal.coe_mul, coe_sum]
  congr 1
  have hterm : ∀ d, q d * (1 / (127 / a)) * (wr d * s) = (q d * wr d) * (s * a / 127) := fun d => by
    field_simp
  rw [Finset.sum_congr rfl fun d _ => hterm d, ← Finset.sum_mul]
  field_simp
  ring

end Row

end Cert.BitLinear

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.QuantChunk.lean ====
/-
  The first kernel's arithmetic on one chunk of 128 rows, at an element.

  The body treats each chunk of 128 rows of its block alike.  For a chunk v [128, 4096]:
    chunkNorm v  = v * (1 / sqrt( rowsum(v^2) / 4096 + eps ))  row by row          the normalised rows
    chunkPeak v  = max( rowmax |chunkNorm v| , eps )                                 a column [128, 1]
    chunkQ v     = clip( round-half-even( chunkNorm v * (127 / chunkPeak v) ), -128, 127 )   the codes
    chunkInv2 v  = chunkPeak v ^ 2 * (1 / 16129)                                     a column [128, 1]
  Read at row p these are the row quantities of the row v (p, .): rowNorm, rowPeak, rowQ, rowInv2.
  The row sums and maxima are reductions over the second axis kept as columns, and the columns are spread back over
  the rows; the constant 1 / 16129 is the kernel's named reciprocal of 127^2.
  The body's eight stored values (two per chunk) are these expressions of the chunk they load.
-/
import proofs.«419115_j29557964931127_3_alg».proof.Proof.Gen.KernelIdeal.Skeleton
import proofs.«419115_j29557964931127_3_alg».proof.Proof.RowSpec
import proofs.«419115_j29557964931127_3_alg».proof.Proof.LibBlockOps
import proofs.«419115_j29557964931127_3_alg».proof.Proof.LibRowReduce
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.QuantValue

open Cert.KernelIdeal Cert.KernelIdeal.Gen Idealize.ShloMosaic Idealize.ShloMosaic.ValueIdx Cert.BitLinear
open Cert.LibBlockOps (u1 col_apply)
open Cert.LibRowReduce (column_of_vector_apply row_sum_apply row_max_apply)

variable [Cert.KernelIdeal.Facts]

/-- The normalised rows of a chunk. -/
def chunkNorm (v : FVec Ideal S128x4096 .f32) : FVec Ideal S128x4096 .f32 :=
  mulf v (broadcastTo S128x4096 (rsqrt (addf (divf (shapeCast S128x1 (multiReduction (F := Ideal) .add [1] S128 (mulf v v) 0x00000000#32 reduces_S128x4096_S128 (.inl rfl) rfl) shapeCasts_S128_S128x1) (broadcast S128x1 (Scalar.ofBits (F := Ideal) .f32 0x45800000#32))) (broadcast S128x1 (Scalar.ofBits (F := Ideal) .f32 0x3727C5AC#32)))) broadcasts_S128x1_S128x4096)

/-- The largest magnitude of each normalised row, floored at eps, as a column. -/
def chunkPeak (v : FVec Ideal S128x4096 .f32) : FVec Ideal S128x1 .f32 :=
  maximumf (shapeCast S128x1 (multiReduction (F := Ideal) .maximumf [1] S128 (absf (chunkNorm v)) 0xFF800000#32 reduces_S128x4096_S128 (.inl rfl) rfl) shapeCasts_S128_S128x1) (broadcast S128x1 (Scalar.ofBits (F := Ideal) .f32 0x3727C5AC#32))

/-- The codes of a chunk. -/
def chunkQ (v : FVec Ideal S128x4096 .f32) : FVec Ideal S128x4096 .bf16 :=
  truncf .bf16 (minimumf (broadcast S128x4096 (Scalar.ofBits (F := Ideal) .f32 0x42FE0000#32)) (maximumf (broadcast S128x4096 (Scalar.ofBits (F := Ideal) .f32 0xC3000000#32)) (roundeven (mulf (chunkNorm v) (broadcastTo S128x4096 (divf (broadcast S128x1 (Scalar.ofBits (F := Ideal) .f32 0x42FE0000#32)) (chunkPeak v)) broadcasts_S128x1_S128x4096))))) bitsLt_bf16_f32

/-- peak^2 / 16129 of each row, as a column. -/
def chunkInv2 (v : FVec Ideal S128x4096 .f32) : FVec Ideal S128x1 .f32 :=
  mulf (mulf (chunkPeak v) (chunkPeak v)) (broadcast S128x1 (Named.named (F := Ideal) κ "inv_16129" (φ := .f32) 0x38820610#32))

/-- The kernel's named reciprocal denotes 1 / 16129. -/
theorem inv_16129 : Named.named (F := Ideal) κ "inv_16129" (φ := .f32) 0x38820610#32 = ((1 / 16129 : ℝ) : EReal) :=
  IdealRules.named_const.ideal_named_scalar _ _ _ _ rfl

theorem chunkNorm_apply (v : FVec Ideal S128x4096 .f32) (p : Fin 128) (d : Fin 4096) :
    chunkNorm v (ix2 p d) = rowNorm (fun k => v (ix2 p k)) d := by
  unfold chunkNorm rowNorm rowRs
  rw [mulf_apply, col_apply]
  refine congrArg (v (ix2 p d) * ·) ?_
  show Ideal.rsqrt (Ideal.div (shapeCast S128x1 _ shapeCasts_S128_S128x1 (ix2 p u1)) (Ideal.ofBits .f32 0x45800000#32) + Ideal.ofBits .f32 0x3727C5AC#32) = _
  rw [column_of_vector_apply]
  refine congrArg (fun s => Ideal.rsqrt (Ideal.div s (Ideal.ofBits .f32 0x45800000#32) + Ideal.ofBits .f32 0x3727C5AC#32)) ?_
  exact row_sum_apply (R := 128) (D := 4096) (mulf v v) _ _ _ _ p

theorem chunkPeak_apply (v : FVec Ideal S128x4096 .f32) (p : Fin 128) :
    chunkPeak v (ix2 p u1) = rowPeak (fun k => v (ix2 p k)) := by
  unfold chunkPeak rowPeak
  rw [maximumf_apply, column_of_vector_apply]
  refine congrArg (fun s => max s (Ideal.ofBits .f32 0x3727C5AC#32)) ?_
  refine (row_max_apply (R := 128) (D := 4096) (absf (chunkNorm v)) _ _ _ _ p).trans ?_
  show Finset.univ.fold max (Ideal.ofBits .f32 0xFF800000#32) (fun k => max (chunkNorm v (ix2 p k)) (-(chunkNorm v (ix2 p k)))) = _
  simp only [chunkNorm_apply]

theorem chunkQ_apply (v : FVec Ideal S128x4096 .f32) (p : Fin 128) (d : Fin 4096) :
    chunkQ v (ix2 p d) = rowQ (fun k => v (ix2 p k)) d := by
  unfold chunkQ rowQ rowScale
  rw [truncf_apply, minimumf_apply, maximumf_apply]
  show min (Ideal.ofBits .f32 0x42FE0000#32) (max (Ideal.ofBits .f32 0xC3000000#32) (Ideal.liftRound Ideal.roundHalfEven (chunkNorm v (ix2 p d) * broadcastTo S128x4096 (divf (broadcast S128x1 (Scalar.ofBits (F := Ideal) .f32 0x42FE0000#32)) (chunkPeak v)) broadcasts_S128x1_S128x4096 (ix2 p d)))) = _
  rw [col_apply, divf_apply, chunkPeak_apply, chunkNorm_apply]
  rfl

theorem chunkInv2_apply (v : FVec Ideal S128x4096 .f32) (p : Fin 128) :
    chunkInv2 v (ix2 p u1) = rowInv2 (fun k => v (ix2 p k)) := by
  unfold chunkInv2 rowInv2
  rw [mulf_apply, mulf_apply, chunkPeak_apply, broadcast_apply, inv_16129]

/-! The body's stored values are these expressions of the chunk loaded. -/

theorem pay7_eq (v3 : Vec Ideal S128x4096 .f32) : k0_pay7 (F := Ideal) v3 = chunkQ v3 := by
  unfold k0_pay7 k0_pay6 k0_pay5 chunkQ chunkPeak chunkNorm; rw [shapeCast_self]
theorem pay8_eq (v3 : Vec Ideal S128x4096 .f32) : k0_pay8 (F := Ideal) v3 = chunkInv2 v3 := by
  unfold k0_pay8 k0_pay6 k0_pay5 chunkInv2 chunkPeak chunkNorm; rw [shapeCast_self]
theorem pay11_eq (v40 : Vec Ideal S128x4096 .f32) : k0_pay11 (F := Ideal) v40 = chunkQ v40 := by
  unfold k0_pay11 k0_pay10 k0_pay9 chunkQ chunkPeak chunkNorm; rw [shapeCast_self]
theorem pay12_eq (v40 : Vec Ideal S128x4096 .f32) : k0_pay12 (F := Ideal) v40 = chunkInv2 v40 := by
  unfold k0_pay12 k0_pay10 k0_pay9 chunkInv2 chunkPeak chunkNorm; rw [shapeCast_self]
theorem pay17_eq (v77 : Vec Ideal S128x4096 .f32) :
    k0_pay17 (F := Ideal) (k0_pay13 v77) (k0_pay14 v77) (Scalar.ofBits (F := Ideal) .f32 0x45800000#32) = chunkQ v77 := by
  unfold k0_pay17 k0_pay16 k0_pay15 k0_pay14 k0_pay13 chunkQ chunkPeak chunkNorm; rw [shapeCast_self]
theorem pay18_eq (v77 : Vec Ideal S128x4096 .f32) :
    k0_pay18 (F := Ideal) (k0_pay13 v77) (k0_pay14 v77) (Scalar.ofBits (F := Ideal) .f32 0x45800000#32) = chunkInv2 v77 := by
  unfold k0_pay18 k0_pay16 k0_pay15 k0_pay14 k0_pay13 chunkInv2 chunkPeak chunkNorm; rw [shapeCast_self]
theorem pay3_eq (v114 : Vec Ideal S128x4096 .f32) :
    k0_pay3 (F := Ideal) (k0_pay19 v114) (k0_pay20 v114) = chunkQ v114 := by
  unfold k0_pay3 k0_pay2 k0_pay1 k0_pay20 k0_pay19 chunkQ chunkPeak chunkNorm; rw [shapeCast_self]
theorem pay4_eq (v114 : Vec Ideal S128x4096 .f32) :
    k0_pay4 (F := Ideal) (k0_pay19 v114) (k0_pay20 v114) = chunkInv2 v114 := by
  unfold k0_pay4 k0_pay2 k0_pay1 k0_pay20 k0_pay19 chunkInv2 chunkPeak chunkNorm; rw [shapeCast_self]

end Cert.KernelIdeal.QuantValue

end
-- ==== Proof.QuantRegion.lean ====
/-
  The first kernel's two output arrays after its run.

  The grid is 64 points; point i normalises and quantises rows [512 i, 512 i + 512) of the activations, in four
  chunks of 128 rows, and writes the codes of those rows to block i of the code array and their reciprocal squared
  scales to block i of a column.  Each chunk's stored values are the row quantities of the rows it loads (the chunk
  module), the four stores tile the block, so the block written is ONE function of the block read:
      blockQ x (r, d) = rowQ (row r of x) d,       blockInv2 x (r, 0) = rowInv2 (row r of x).
  Every block written is then a block of ONE function of the array the region finds, the 64 blocks tile both
  outputs, and the arrays end holding
      codesOf (R, d) = rowQ (row R of the activations) d,    invsqOf (R, 0) = rowInv2 (row R of the activations).
-/
import proofs.«419115_j29557964931127_3_alg».proof.Proof.Gen.KernelIdeal.Frame
import proofs.«419115_j29557964931127_3_alg».proof.Proof.QuantChunk
import Idealize.ShloMosaic.Lib.Pipeline.Value
import Idealize.ShloMosaic.Lib.ValueIdx

set_option maxRecDepth 16384

noncomputable section

namespace Cert.KernelIdeal.QuantValue

open Cert.KernelIdeal Cert.KernelIdeal.Gen Idealize.ShloMosaic Idealize.ShloMosaic.TcCoe Idealize.ShloMosaic.Tactic
open Idealize.ShloMosaic.ValueIdx Idealize.SL.Sem Cert.BitLinear
open Cert.LibBlockOps (u1)

/-! ## One block -/

/-- The codes of a block of 512 rows. -/
def blockQ (x : Vec Ideal S512x4096 .f32) : S512x4096.Idx → EReal := fun y =>
  rowQ (fun k => x (ix2 (n0 := 512) (n1 := 4096) ⟨(y 0).val, (y 0).isLt⟩ k)) ⟨(y 1).val, (y 1).isLt⟩

/-- The reciprocal squared scales of a block of 512 rows, as a column. -/
def blockInv2 (x : Vec Ideal S512x4096 .f32) : S512x1.Idx → EReal := fun y =>
  rowInv2 (fun k => x (ix2 (n0 := 512) (n1 := 4096) ⟨(y 0).val, (y 0).isLt⟩ k))

/-- A load of whole staging contents through a rectangle reads the contents at the rectangle's indices. -/
theorem load_eq (arg1 : Memref sig .tc .vmem S512x4096 .f32) (harg1 : arg1.IsWhole) (x : Vec Ideal S512x4096 .f32)
    (R : Rect S512x4096) :
    View.readAt (Elt Ideal) arg1.view R.toLoadRect (harg1.unread x) = View.ld x R := by
  rw [View.readAt_eq_ld, harg1.read_unread]

/-- The codes of the 128 rows loaded through a rectangle at row offset o are the block's codes there. -/
theorem piece_codes (x : Vec Ideal S512x4096 .f32) (off : Fin 2 → Nat) (hoff : off 1 = 0)
    (inb : ∀ a, off a + S128x4096.size a ≤ S512x4096.size a)
    (y : (Rect.unit (s := S512x4096) off S128x4096.size inb).shape.Idx) :
    chunkQ (View.ld x (Rect.unit (s := S512x4096) off S128x4096.size inb)) y
      = blockQ x ((Rect.unit (s := S512x4096) off S128x4096.size inb).emb y) := by
  obtain ⟨p, d, rfl⟩ : ∃ (p : Fin 128) (d : Fin 4096), y = ix2 p d := ⟨y 0, y 1, eq_ix2 y⟩
  rw [chunkQ_apply]
  unfold blockQ
  have hd : (⟨(((Rect.unit (s := S512x4096) off S128x4096.size inb).emb (ix2 p d)) 1).val,
      (((Rect.unit (s := S512x4096) off S128x4096.size inb).emb (ix2 p d)) 1).isLt⟩ : Fin 4096) = d :=
    Fin.ext (by show off 1 + 1 * d.val = d.val; omega)
  rw [hd]
  refine congrArg (fun f => rowQ f d) (funext fun k => congrArg x (funext fun a => Fin.ext ?_))
  match a with
  | ⟨0, _⟩ => rfl
  | ⟨1, _⟩ => show off 1 + 1 * k.val = k.val; omega

/-- The reciprocal squared scales of the 128 rows loaded at row offset o are the block's there. -/
theorem piece_invsq (x : Vec Ideal S512x4096 .f32) (off : Fin 2 → Nat) (hoff : off 1 = 0)
    (inb : ∀ a, off a + S128x4096.size a ≤ S512x4096.size a)
    (off' : Fin 2 → Nat) (hoff' : off' 0 = off 0) (inb' : ∀ a, off' a + S128x1.size a ≤ S512x1.size a)
    (y : (Rect.unit (s := S512x1) off' S128x1.size inb').shape.Idx) :
    chunkInv2 (View.ld x (Rect.unit (s := S512x4096) off S128x4096.size inb)) y
      = blockInv2 x ((Rect.unit (s := S512x1) off' S128x1.size inb').emb y) := by
  obtain ⟨p, u, rfl⟩ : ∃ (p : Fin 128) (u : Fin 1), y = ix2 p u := ⟨y 0, y 1, eq_ix2 y⟩
  obtain rfl : u = u1 := Subsingleton.elim _ _
  rw [chunkInv2_apply]
  unfold blockInv2
  refine congrArg rowInv2 (funext fun k => congrArg x (funext fun a => Fin.ext ?_))
  match a with
  | ⟨0, _⟩ => show off 0 + 1 * p.val = off' 0 + 1 * p.val; omega
  | ⟨1, _⟩ => show off 1 + 1 * k.val = k.val; omega

/-- What the body leaves in the code output's staging buffer: the block's codes. -/
theorem out_codes (c : Dev nD) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x : Vec Ideal S512x4096 .f32) :
    out0_A_1 (F := Ideal) c i arg1 harg1 arg2 harg2 arg3 harg3 x = blockQ x := by
  unfold out0_A_1
  rw [View.read_writes_eq_canon _ _ _ (cover0_A_1 c i arg1 harg1 arg2 harg2 arg3 harg3 x)]
  funext y
  refine View.canon_apply_of_pieces (blockQ x) _ ?_ y (cover0_A_1 c i arg1 harg1 arg2 harg2 arg3 harg3 x y)
  unfold kernelRun0_A
  dsimp only
  sl_unfold_words
  intro pc hpc z
  simp only [List.mem_cons, List.not_mem_nil, or_false] at hpc
  rcases hpc with rfl | rfl | rfl | rfl
  · show k0_pay3 (F := Ideal) (k0_pay19 _) (k0_pay20 _) z = _
    rw [load_eq, pay3_eq]; exact piece_codes x _ rfl _ z
  · show k0_pay17 (F := Ideal) (k0_pay13 _) (k0_pay14 _) _ z = _
    rw [load_eq]; exact (congrFun (pay17_eq _) z).trans (piece_codes x _ rfl _ z)
  · show k0_pay11 (F := Ideal) _ z = _
    rw [load_eq, pay11_eq]; exact piece_codes x _ rfl _ z
  · show k0_pay7 (F := Ideal) _ z = _
    rw [load_eq, pay7_eq]; exact piece_codes x _ rfl _ z

/-- What the body leaves in the column output's staging buffer: the block's reciprocal squared scales. -/
theorem out_invsq (c : Dev nD) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x : Vec Ideal S512x4096 .f32) :
    out0_A_2 (F := Ideal) c i arg1 harg1 arg2 harg2 arg3 harg3 x = blockInv2 x := by
  unfold out0_A_2
  rw [View.read_writes_eq_canon _ _ _ (cover0_A_2 c i arg1 harg1 arg2 harg2 arg3 harg3 x)]
  funext y
  refine View.canon_apply_of_pieces (blockInv2 x) _ ?_ y (cover0_A_2 c i arg1 harg1 arg2 harg2 arg3 harg3 x y)
  unfold kernelRun0_A
  dsimp only
  sl_unfold_words
  intro pc hpc z
  simp only [List.mem_cons, List.not_mem_nil, or_false] at hpc
  rcases hpc with rfl | rfl | rfl | rfl
  · show k0_pay4 (F := Ideal) (k0_pay19 _) (k0_pay20 _) z = _
    rw [load_eq, pay4_eq]; exact piece_invsq x ![384, 0] rfl _ ![384, 0] rfl (by decide) z
  · show k0_pay18 (F := Ideal) (k0_pay13 _) (k0_pay14 _) _ z = _
    rw [load_eq]; exact (congrFun (pay18_eq _) z).trans (piece_invsq x ![256, 0] rfl _ ![256, 0] rfl (by decide) z)
  · show k0_pay12 (F := Ideal) _ z = _
    rw [load_eq, pay12_eq]; exact piece_invsq x ![128, 0] rfl _ ![128, 0] rfl (by decide) z
  · show k0_pay8 (F := Ideal) _ z = _
    rw [load_eq, pay8_eq]; exact piece_invsq x ![0, 0] rfl _ ![0, 0] rfl (by decide) z

/-! ## The arrays -/

variable (V : (c : Dev nD) → (b : Ref sig .tc) → Buf (Elt Ideal) ((c : Thread nD τ).loc b))

/-- The activations as the region finds them (the argument array, its leading axes merged). -/
abbrev acts (c : Dev nD) : S32768x4096.Idx → EReal := V c main_v0

/-- The codes of every row. -/
def codesOf (c : Dev nD) : S32768x4096.Idx → EReal := fun i =>
  rowQ (fun k => acts V c (ix2 (n0 := 32768) (n1 := 4096) ⟨(i 0).val, (i 0).isLt⟩ k)) ⟨(i 1).val, (i 1).isLt⟩

/-- The reciprocal squared scale of every row, as a column. -/
def invsqOf (c : Dev nD) : S32768x1.Idx → EReal := fun i =>
  rowInv2 (fun k => acts V c (ix2 (n0 := 32768) (n1 := 4096) ⟨(i 0).val, (i 0).isLt⟩ k))

theorem codesOf_at (c : Dev nD) (r : Fin 32768) (d : Fin 4096) :
    codesOf V c (ix2 r d) = rowQ (fun k => acts V c (ix2 r k)) d := rfl

theorem invsqOf_at (c : Dev nD) (r : Fin 32768) :
    invsqOf V c (ix2 r u1) = rowInv2 (fun k => acts V c (ix2 r k)) := rfl

/-- The printed index maps over the grid: point t reads and writes row block t, column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the input block at point t is row 512 t + p of the activations. -/
theorem block_row (c : Dev nD) (t : Fin cfg0.N) (p : Fin 512) (k : Fin 4096)
    (hrow : t.val * 512 + 1 * p.val < 32768) :
    iblk0 (F := Ideal) V c 0 t (ix2 p k) = acts V c (ix2 (n0 := 32768) (n1 := 4096) ⟨t.val * 512 + 1 * p.val, hrow⟩ k) := by
  obtain ⟨e00, e01, -, -, -, -⟩ := idx_facts t
  show V c main_v0 (((cfg0.win 0).blk t).view.emb (ix2 p k)) = _
  refine congrArg (V c main_v0) (funext fun a => Fin.ext ?_)
  match a with
  | ⟨0, _⟩ => show win0_0.index t (0 : Fin 2) * 512 + 1 * p.val = t.val * 512 + 1 * p.val; omega
  | ⟨1, _⟩ => show win0_0.index t (1 : Fin 2) * 4096 + 1 * k.val = k.val; omega

/-- What point t writes back to the code array is block t of the codes of every row. -/
theorem flushed_codes (c : Dev nD) (t : Fin cfg0.N) :
    (dat0 (F := Ideal) V c).flushed 1 t = ((cfg0.win 1).blk t).view.read (Elt Ideal) (codesOf V c) := by
  show (cfg0.win 1).cut (grid0.coords t) ((dat0 (F := Ideal) V c).after 1 t) = _
  rw [after0_1]
  unfold outsAt0
  dsimp only
  rw [out_codes]
  obtain ⟨-, -, e10, e11, -, -⟩ := idx_facts t
  funext j
  obtain ⟨p, d, rfl⟩ : ∃ (p : Fin 512) (d : Fin 4096), j = ix2 p d := ⟨j 0, j 1, eq_ix2 j⟩
  have hp : p.val < 512 := p.isLt
  have hd : d.val < 4096 := d.isLt
  have ht : t.val < 64 := t.isLt
  have hrow : t.val * 512 + 1 * p.val < 32768 := by omega
  have ho : ((cfg0.win 1).blk t).view.emb (ix2 p d) = ix2 (n0 := 32768) (n1 := 4096) ⟨t.val * 512 + 1 * p.val, hrow⟩ d := by
    funext a; apply Fin.ext
    match a with
    | ⟨0, _⟩ => show win0_1.index t (0 : Fin 2) * 512 + 1 * p.val = t.val * 512 + 1 * p.val; omega
    | ⟨1, _⟩ => show win0_1.index t (1 : Fin 2) * 4096 + 1 * d.val = d.val; omega
  show blockQ (iblk0 (F := Ideal) V c 0 t) (ix2 p d) = codesOf V c (((cfg0.win 1).blk t).view.emb (ix2 p d))
  rw [ho, codesOf_at]
  show rowQ (fun k => iblk0 (F := Ideal) V c 0 t (ix2 p k)) d = _
  exact congrArg (fun f => rowQ f d) (funext fun k => block_row V c t p k hrow)

/-- What point t writes back to the column is block t of the reciprocal squared scales of every row. -/
theorem flushed_invsq (c : Dev nD) (t : Fin cfg0.N) :
    (dat0 (F := Ideal) V c).flushed 2 t = ((cfg0.win 2).blk t).view.read (Elt Ideal) (invsqOf V c) := by
  show (cfg0.win 2).cut (grid0.coords t) ((dat0 (F := Ideal) V c).after 2 t) = _
  rw [after0_2]
  unfold outsAt0
  dsimp only
  rw [out_invsq]
  obtain ⟨-, -, -, -, e20, e21⟩ := idx_facts t
  funext j
  obtain ⟨p, u, rfl⟩ : ∃ (p : Fin 512) (u : Fin 1), j = ix2 p u := ⟨j 0, j 1, eq_ix2 j⟩
  obtain rfl : u = u1 := Subsingleton.elim _ _
  have hp : p.val < 512 := p.isLt
  have ht : t.val < 64 := t.isLt
  have hrow : t.val * 512 + 1 * p.val < 32768 := by omega
  have ho : ((cfg0.win 2).blk t).view.emb (ix2 p u1) = ix2 (n0 := 32768) (n1 := 1) ⟨t.val * 512 + 1 * p.val, hrow⟩ u1 := by
    funext a; apply Fin.ext
    match a with
    | ⟨0, _⟩ => show win0_2.index t (0 : Fin 2) * 512 + 1 * p.val = t.val * 512 + 1 * p.val; omega
    | ⟨1, _⟩ => show win0_2.index t (1 : Fin 2) * 1 + 1 * 0 = 0; omega
  show blockInv2 (iblk0 (F := Ideal) V c 0 t) (ix2 p u1) = invsqOf V c (((cfg0.win 2).blk t).view.emb (ix2 p u1))
  rw [ho, invsqOf_at]
  show rowInv2 (fun k => iblk0 (F := Ideal) V c 0 t (ix2 p k)) = _
  exact congrArg rowInv2 (funext fun k => block_row V c t p k hrow)

/-- An index of the code array is in point t's block iff each coordinate is in the block's range. -/
theorem mem_blk_codes (t : Fin cfg0.N) (i : S32768x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v7_0).slice (win0_1.rect t)).set ↔ _
  rw [View.set_slice_whole, Rect.mem_set_unit]
  exact Iff.rfl

theorem mem_blk_invsq (t : Fin cfg0.N) (i : S32768x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v7_1).slice (win0_2.rect t)).set ↔ _
  rw [View.set_slice_whole, Rect.mem_set_unit]
  exact Iff.rfl

/-- The 64 row blocks tile the code array: row R is in the block of point R / 512. -/
theorem cover_codes (i : S32768x4096.Idx) : ∃ t : Fin cfg0.N, (cfg0.win 1).flush t = true ∧ i ∈ ((cfg0.win 1).blk t).view.set := by
  have hi0 : (i 0).val < 32768 := (i 0).isLt
  have hi1 : (i 1).val < 4096 := (i 1).isLt
  let t : Fin cfg0.N := ⟨(i 0).val / 512, by show (i 0).val / 512 < 64; omega⟩
  obtain ⟨-, -, e10, e11, -, -⟩ := idx_facts t
  have tv : t.val = (i 0).val / 512 := rfl
  refine ⟨t, flush0_1 t, ?_⟩
  rw [mem_blk_codes]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

theorem cover_invsq (i : S32768x1.Idx) : ∃ t : Fin cfg0.N, (cfg0.win 2).flush t = true ∧ i ∈ ((cfg0.win 2).blk t).view.set := by
  have hi0 : (i 0).val < 32768 := (i 0).isLt
  have hi1 : (i 1).val < 1 := (i 1).isLt
  let t : Fin cfg0.N := ⟨(i 0).val / 512, by show (i 0).val / 512 < 64; omega⟩
  obtain ⟨-, -, -, -, e20, e21⟩ := idx_facts t
  have tv : t.val = (i 0).val / 512 := rfl
  refine ⟨t, flush0_2 t, ?_⟩
  rw [mem_blk_invsq]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- The code array after the region's run holds the codes of every row of the activations the region found. -/
theorem codes_array (c : Dev nD) : (dat0 (F := Ideal) V c).arrAt 1 cfg0.N = codesOf V c :=
  (dat0 (F := Ideal) V c).arrAt_eq_of_cover 1 (codesOf V c) (fun t _ => flushed_codes V c t) cover_codes

/-- The column after the region's run holds the reciprocal squared scale of every row. -/
theorem invsq_array (c : Dev nD) : (dat0 (F := Ideal) V c).arrAt 2 cfg0.N = invsqOf V c :=
  (dat0 (F := Ideal) V c).arrAt_eq_of_cover 2 (invsqOf V c) (fun t _ => flushed_invsq V c t) cover_invsq

end Cert.KernelIdeal.QuantValue

end
-- ==== Proof.MatmulPayload.lean ====
/-
  The second kernel's arithmetic at an element.

  Its body multiplies a block of codes x0 [1024, 4096] by a block of weights x1 [4096, 512] on the matrix unit, into
  a zero accumulator, and scales row p of the product by the entry (p, 0) of a column x2 [1024, 1].  At (p, q):
      ( sum over k of x0 (p, k) * x1 (k, q) ) * x2 (p, 0).
  The product's contraction index has one coordinate, through which the sum is re-indexed by k < 4096; the operand
  indices at output index i and contraction index c are (i 0, c) on the left and (c, i 1) on the right.
-/
import proofs.«419115_j29557964931127_3_alg».proof.Proof.Gen.KernelIdeal.Skeleton
import proofs.«419115_j29557964931127_3_alg».proof.Proof.LibBlockOps
import Idealize.ShloMosaic.Lib.ValueIdx
import Idealize.ShloMosaic.Lib.Pipeline.Value
import Idealize.ShloMosaic.PureOps.Ideal.Laws

noncomputable section

namespace Cert.KernelIdeal.MatmulValue

open Cert.KernelIdeal Cert.KernelIdeal.Gen Idealize.ShloMosaic Idealize.ShloMosaic.ValueIdx

variable [Cert.KernelIdeal.Facts]

/-- Left operand index, row coordinate: the output's row. -/
theorem lhs_row (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl

/-- Left operand index, column coordinate: the contracted coordinate. -/
theorem lhs_col (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q

/-- Right operand index, row coordinate: the contracted coordinate. -/
theorem rhs_row (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q

/-- Right operand index, column coordinate: the output's column. -/
theorem rhs_col (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The matrix unit's product into the zero accumulator at (p, q): the sum over k of left (p, k) times right (k, q). -/
theorem product_apply (y0 : FVec Ideal S1024x4096 .bf16) (y1 : FVec Ideal S4096x512 .bf16) (p : Fin 1024) (q : Fin 512) :
    matmul dot_S1024x4096_S4096x512_S1024x512_1_0_0_1_n_n none y0 y1 (constant (F := Ideal) S1024x512 .f32 0x00000000#32) (ix2 p q)
      = ∑ k : Fin 4096, y0 (ix2 p k) * y1 (ix2 k q) := by
  show FloatOps.matmul _ none y0 y1 _ (ix2 p q) = _
  rw [Ideal.matmul_constant_zero_apply, ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx (ix2 p q) ((ValueIdx.contrEquiv1 dot_S1024x4096_S4096x512_S1024x512_1_0_0_1_n_n 4096 rfl rfl).symm k) = ix2 p k := funext fun a => Fin.ext (by
    match a with
    | ⟨0, _⟩ => exact lhs_row _ _
    | ⟨1, _⟩ => exact (lhs_col _ _).trans hk)
  have er : dot_S1024x4096_S4096x512_S1024x512_1_0_0_1_n_n.rhsIdx (ix2 p q) ((ValueIdx.contrEquiv1 dot_S1024x4096_S4096x512_S1024x512_1_0_0_1_n_n 4096 rfl rfl).symm k) = ix2 k q := funext fun a => Fin.ext (by
    match a with
    | ⟨0, _⟩ => exact (rhs_row _ _).trans hk
    | ⟨1, _⟩ => exact rhs_col _ _)
  rw [el, er]

/-- The body's stored value at (p, q). -/
theorem payload_apply (x0 : Vec Ideal S1024x4096 .bf16) (x1 : Vec Ideal S4096x512 .bf16) (x2 : Vec Ideal S1024x1 .f32)
    (p : Fin 1024) (q : Fin 512) :
    k1_pay1 (F := Ideal) x0 x1 x2 (ix2 p q)
      = (∑ k : Fin 4096, x0 (ix2 p k) * x1 (ix2 k q)) * x2 (ix2 p Cert.LibBlockOps.u1) := by
  unfold k1_pay1
  rw [mulf_apply, shapeCast_self, shapeCast_self, shapeCast_self, product_apply, Cert.LibBlockOps.col_apply]

end Cert.KernelIdeal.MatmulValue

end
-- ==== Proof.MatmulRegion.lean ====
/-
  The second kernel's output array after its run.

  The grid is 32 x 8 points; point (i, j) multiplies rows [1024 i, 1024 i + 1024) of the codes by columns
  [512 j, 512 j + 512) of the weights, scales row r of the product by the row's entry of the column of reciprocal
  squared scales, and writes the [1024, 512] result to the block (i, j) of the output.  So every block written is a
  block of ONE function of the three arrays the region finds,
      product (r, f) = ( sum over k of codes (r, k) * weights (k, f) ) * invsq (r, 0),
  and the 256 blocks tile the [32768, 4096] output: the array ends holding that function.
  The windows' block indices, decided once over the grid: the codes' and the column's blocks follow the output's row
  block, the weights' block follows the output's column block, and the other coordinate of each is block 0.
-/
import proofs.«419115_j29557964931127_3_alg».proof.Proof.Gen.KernelIdeal.Frame
import proofs.«419115_j29557964931127_3_alg».proof.Proof.MatmulPayload
import Idealize.ShloMosaic.Lib.Pipeline.Value
import Idealize.ShloMosaic.Lib.ValueIdx

set_option maxRecDepth 16384

noncomputable section

namespace Cert.KernelIdeal.MatmulValue

open Cert.KernelIdeal Cert.KernelIdeal.Gen Idealize.ShloMosaic Idealize.ShloMosaic.TcCoe Idealize.ShloMosaic.ValueIdx
open Idealize.SL.Sem
open Cert.LibBlockOps (u1)

variable (V : (c : Dev nD) → (b : Ref sig .tc) → Buf (Elt Ideal) ((c : Thread nD τ).loc b))

theorem off_zero : (![0, 0] : Fin 2 → Nat) = fun _ => 0 := funext fun a => by fin_cases a <;> rfl

/-- The three arrays the region reads, as it finds them. -/
abbrev codes (c : Dev nD) : S32768x4096.Idx → EReal := V c main_v7_0
abbrev weights (c : Dev nD) : S4096x4096.Idx → EReal := V c main_v6
abbrev invsq (c : Dev nD) : S32768x1.Idx → EReal := V c main_v7_1

/-- The scaled product at an element. -/
def product (c : Dev nD) : S32768x4096.Idx → EReal := fun i =>
  (∑ k : Fin 4096, codes V c (ix2 (n0 := 32768) (n1 := 4096) ⟨(i 0).val, (i 0).isLt⟩ k)
      * weights V c (ix2 (n0 := 4096) (n1 := 4096) k ⟨(i 1).val, (i 1).isLt⟩))
    * invsq V c (ix2 (n0 := 32768) (n1 := 1) ⟨(i 0).val, (i 0).isLt⟩ u1)

theorem product_at (c : Dev nD) (r : Fin 32768) (f : Fin 4096) :
    product V c (ix2 r f) = (∑ k : Fin 4096, codes V c (ix2 r k) * weights V c (ix2 k f)) * invsq V c (ix2 r u1) := rfl

/-- The printed index maps over the grid. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = win1_3.index t (0 : Fin 2) ∧ win1_2.index t (1 : Fin 2) = 0
    ∧ win1_3.index t (0 : Fin 2) ≤ 31 ∧ win1_3.index t (1 : Fin 2) ≤ 7 :=
  (by decide +kernel : ∀ t : Fin grid1.N, _)

/-- Every block of the output is some point's. -/
theorem idx_onto : ∀ (q0 : Fin 32) (q1 : Fin 8), ∃ t : Fin cfg1.N, win1_3.index t = ![q0.val, q1.val] :=
  (by decide +kernel : ∀ (q0 : Fin 32) (q1 : Fin 8), ∃ t : Fin grid1.N, win1_3.index t = ![q0.val, q1.val])

/-- What point t writes back is block t of the scaled product. -/
theorem flushed_eq (c : Dev nD) (t : Fin cfg1.N) :
    (dat1 (F := Ideal) V c).flushed 3 t = ((cfg1.win 3).blk t).view.read (Elt Ideal) (product V c) := by
  show (cfg1.win 3).cut (grid1.coords t) ((dat1 (F := Ideal) V c).after 3 t) = _
  rw [after1_3]
  unfold out1_3
  rw [View.canon_unit_zero off_zero]
  simp only [View.ld_unit_zero (S := S1024x4096) off_zero, View.ld_unit_zero (S := S4096x512) off_zero,
    View.ld_unit_zero (S := S1024x1) off_zero]
  obtain ⟨e00, e01, e10, e11, e20, e21, b0, b1⟩ := idx_facts t
  funext j
  obtain ⟨p, q, rfl⟩ : ∃ (p : Fin 1024) (q : Fin 512), j = ix2 p q := ⟨j 0, j 1, eq_ix2 j⟩
  refine (payload_apply _ _ _ p q).trans ?_
  show (∑ k : Fin 4096, codes V c (((cfg1.win 0).blk t).view.emb (ix2 p k)) * weights V c (((cfg1.win 1).blk t).view.emb (ix2 k q)))
      * invsq V c (((cfg1.win 2).blk t).view.emb (ix2 p u1))
    = product V c (((cfg1.win 3).blk t).view.emb (ix2 p q))
  have hp : p.val < 1024 := p.isLt
  have hq : q.val < 512 := q.isLt
  have hrow : win1_3.index t (0 : Fin 2) * 1024 + 1 * p.val < 32768 := by omega
  have hcol : win1_3.index t (1 : Fin 2) * 512 + 1 * q.val < 4096 := by omega
  have ho : ((cfg1.win 3).blk t).view.emb (ix2 p q)
      = ix2 (n0 := 32768) (n1 := 4096) ⟨win1_3.index t (0 : Fin 2) * 1024 + 1 * p.val, hrow⟩ ⟨win1_3.index t (1 : Fin 2) * 512 + 1 * q.val, hcol⟩ := by
    funext a; apply Fin.ext
    match a with
    | ⟨0, _⟩ => rfl
    | ⟨1, _⟩ => rfl
  rw [ho, product_at]
  have h0 : ∀ k : Fin 4096, ((cfg1.win 0).blk t).view.emb (ix2 p k)
      = ix2 (n0 := 32768) (n1 := 4096) ⟨win1_3.index t (0 : Fin 2) * 1024 + 1 * p.val, hrow⟩ k := fun k => by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * k.val = k.val; omega
  have h1 : ∀ k : Fin 4096, ((cfg1.win 1).blk t).view.emb (ix2 k q)
      = ix2 (n0 := 4096) (n1 := 4096) k ⟨win1_3.index t (1 : Fin 2) * 512 + 1 * q.val, hcol⟩ := fun k => by
    funext a; apply Fin.ext
    match a with
    | ⟨0, _⟩ => show win1_1.index t (0 : Fin 2) * 4096 + 1 * k.val = k.val; omega
    | ⟨1, _⟩ => show win1_1.index t (1 : Fin 2) * 512 + 1 * q.val = win1_3.index t (1 : Fin 2) * 512 + 1 * q.val; omega
  have h2 : ((cfg1.win 2).blk t).view.emb (ix2 p u1)
      = ix2 (n0 := 32768) (n1 := 1) ⟨win1_3.index t (0 : Fin 2) * 1024 + 1 * p.val, hrow⟩ u1 := by
    funext a; apply Fin.ext
    match a with
    | ⟨0, _⟩ => show win1_2.index t (0 : Fin 2) * 1024 + 1 * p.val = win1_3.index t (0 : Fin 2) * 1024 + 1 * p.val; omega
    | ⟨1, _⟩ => show win1_2.index t (1 : Fin 2) * 1 + 1 * 0 = 0; omega
  rw [h2]
  refine congrArg (· * _) (Finset.sum_congr rfl fun k _ => ?_)
  rw [h0 k, h1 k]

/-- An index of the output is in point t's block iff each coordinate is in the block's range. -/
theorem mem_blk (t : Fin cfg1.N) (i : S32768x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v8).slice (win1_3.rect t)).set ↔ _
  rw [View.set_slice_whole, Rect.mem_set_unit]
  exact Iff.rfl

/-- The blocks tile the output: every index is in the block of the point whose coordinates are its row block and
    its column block. -/
theorem cover (i : S32768x4096.Idx) : ∃ t : Fin cfg1.N, (cfg1.win 3).flush t = true ∧ i ∈ ((cfg1.win 3).blk t).view.set := by
  have hi0 : (i 0).val < 32768 := (i 0).isLt
  have hi1 : (i 1).val < 4096 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the region's run is the scaled product of the arrays the region found. -/
theorem array_eq (c : Dev nD) : (dat1 (F := Ideal) V c).arrAt 3 cfg1.N = product V c :=
  (dat1 (F := Ideal) V c).arrAt_eq_of_cover 3 (product V c) (fun t _ => flushed_eq V c t) (cover)

end Cert.KernelIdeal.MatmulValue

end
-- ==== Proof.KernelValue.lean ====
/-
  The idealized kernel's result as a function of its two arguments.

  Reading the program's segments from the launch to the return:
    before the regions  the activations x [8, 4096, 4096] are reshaped to [32768, 4096] (row 4096 b + s is x (b, s, .)),
                        and the weights K are turned into signs: sign(K - mean K), the mean a sum over all 2^24
                        entries divided by 2^24, the narrowing to bf16 the identity on extended reals;
    first region        codes and reciprocal squared scales of every row (the quantisation region's arrays);
    second region       the scaled product of codes, signs and scales (the product region's array);
    after the regions   the result reshaped back to [8, 4096, 4096].
  So at (b, s, f) the result is outK of the row x (b, s, .) against column f of the signs.
-/
import proofs.«419115_j29557964931127_3_alg».proof.Proof.KernelRun
import proofs.«419115_j29557964931127_3_alg».proof.Proof.QuantRegion
import proofs.«419115_j29557964931127_3_alg».proof.Proof.MatmulRegion
import Idealize.ShloMosaic.Lib.StableHlo.Run
import Idealize.ShloMosaic.Lib.Pipeline.Value
import Idealize.ShloMosaic.Lib.ValueIdx

set_option maxRecDepth 16384

noncomputable section

namespace Cert.KernelIdeal.ChainValue

open Cert.KernelIdeal Cert.KernelIdeal.Gen Idealize.ShloMosaic Idealize.ShloMosaic.TcCoe Idealize.ShloMosaic.Tactic
open Idealize.ShloMosaic.ValueIdx Idealize.SL.Sem Cert.BitLinear
open Cert.LibBlockOps (u1)

variable (m : (ℓ : Loc nD τ sig) → Buf (Elt Ideal) ℓ) (ρ : Dev nD → PrngReg)

/-- The two argument arrays as launched. -/
abbrev xArg (c : Dev nD) : S8x4096x4096.Idx → EReal := m ((c.tc : Thread nD τ).loc main_arg0)
abbrev kArg (c : Dev nD) : S4096x4096.Idx → EReal := m ((c.tc : Thread nD τ).loc main_arg1)

/-- The sign of each weight against the mean of all weights, as the host operations before the regions compute it. -/
def signsOf (K : FVec Ideal S4096x4096 .f32) : FVec Ideal S4096x4096 .bf16 :=
  truncf .bf16 (Host.sign (subf K (broadcastInDim S4096x4096 ![] bcast_S_S4096x4096
    (Host.divf (Host.reduceAdd (F := Ideal) K (constant (F := Ideal) S_ .f32 0x00000000#32) reducesTo_S4096x4096_S_d0_1 h_S_)
      (constant (F := Ideal) S_ .f32 0x4B800000#32))))) bitsLt_bf16_f32

/-- The first region finds the activations reshaped. -/
theorem acts_eq (c : Dev nD) :
    QuantValue.acts (V1 m ρ) c = shapeCast S32768x4096 (xArg m c) shapeCasts_S8x4096x4096_S32768x4096 := by
  show StableHlo.after hostOps0 (W0 m ρ c) (Proc.devRef .tc main_v0) = _
  after_results
  rfl

/-- The second region finds the weights' signs: computed before the regions, untouched by the first. -/
theorem weights_eq (c : Dev nD) : MatmulValue.weights (V2 m ρ) c = signsOf (kArg m c) := by
  refine (W2_of_ne m ρ c main_v6 (by decide)).trans ?_
  show StableHlo.after hostOps0 (W0 m ρ c) (Proc.devRef .tc main_v6) = _
  after_results
  rfl

/-- The second region finds the codes of every row, -/
theorem codes_eq (c : Dev nD) : MatmulValue.codes (V2 m ρ) c = QuantValue.codesOf (V1 m ρ) c :=
  (hF0 m ρ c 1).symm.trans (QuantValue.codes_array (V1 m ρ) c)

/-- and the reciprocal squared scales, as the first region left them. -/
theorem invsq_eq (c : Dev nD) : MatmulValue.invsq (V2 m ρ) c = QuantValue.invsqOf (V1 m ρ) c :=
  (hF0 m ρ c 2).symm.trans (QuantValue.invsq_array (V1 m ρ) c)

/-- The array the second region leaves. -/
abbrev productArr (c : Dev nD) : S32768x4096.Idx → EReal := V3 m ρ c main_v8

/-- It is the scaled product. -/
theorem product_eq (c : Dev nD) : productArr m ρ c = MatmulValue.product (V2 m ρ) c :=
  (hF1 m ρ c 3).symm.trans (MatmulValue.array_eq (V2 m ρ) c)

/-- The program's result array, at the last segment boundary. -/
abbrev resultArr (c : Dev nD) : S8x4096x4096.Idx → EReal := W4 m ρ c (Proc.devRef .tc main_v9)

/-- The result is the product array reshaped. -/
theorem result_reshape (c : Dev nD) :
    resultArr m ρ c = shapeCast S8x4096x4096 (productArr m ρ c) shapeCasts_S32768x4096_S8x4096x4096 := by
  show StableHlo.after hostOps2 (W3 m ρ c) (Proc.devRef .tc main_v9) = _
  after_results
  rfl

/-- Row 4096 b + s. -/
theorem row_lt (b : Fin 8) (s : Fin 4096) : b.val * 4096 + s.val < 32768 := by
  have := b.isLt; have := s.isLt; omega

/-- Row 4096 b + s of the reshaped activations is x (b, s, .). -/
theorem acts_row (c : Dev nD) (b : Fin 8) (s : Fin 4096) (k : Fin 4096) :
    QuantValue.acts (V1 m ρ) c (ix2 ⟨b.val * 4096 + s.val, row_lt b s⟩ k) = xArg m c (ix3 b s k) := by
  rw [acts_eq]
  exact shapeCast_apply _ _ _ _ (by
    rw [Shape.rowMajor_val_three, Shape.rowMajor_val_two]
    show (b.val * 4096 + s.val) * 4096 + k.val = (b.val * 4096 + s.val) * 4096 + k.val
    rfl)

/-- The result at (b, s, f). -/
theorem result_apply (c : Dev nD) (b : Fin 8) (s : Fin 4096) (f : Fin 4096) :
    resultArr m ρ c (ix3 b s f)
      = outK (fun k => xArg m c (ix3 b s k)) (fun d => signsOf (kArg m c) (ix2 d f)) := by
  rw [result_reshape]
  refine (shapeCast_apply _ _ (ix3 b s f) (ix2 (n0 := 32768) (n1 := 4096) ⟨b.val * 4096 + s.val, row_lt b s⟩ f) (by
    rw [Shape.rowMajor_val_three, Shape.rowMajor_val_two]
    show (b.val * 4096 + s.val) * 4096 + f.val = (b.val * 4096 + s.val) * 4096 + f.val
    rfl)).trans ?_
  rw [product_eq, MatmulValue.product_at, codes_eq, invsq_eq, weights_eq, QuantValue.invsqOf_at]
  simp only [QuantValue.codesOf_at]
  rw [show (fun k : Fin 4096 => QuantValue.acts (V1 m ρ) c (ix2 ⟨b.val * 4096 + s.val, row_lt b s⟩ k))
      = fun k => xArg m c (ix3 b s k) from funext (acts_row m ρ c b s)]
  rfl

end Cert.KernelIdeal.ChainValue

end
-- ==== Proof.RefValue.lean ====
/-
  The idealized reference's result as a function of its two arguments, at an element.

  The reference is a straight line of host operations.  Read one operation at a time at the coordinates (b, s, .),
  with row = x (b, s, .):
    the sum of squares over the last axis        sum_k row_k^2            (a host sum from 0)
    the normaliser                               rowRs row                (divide by 4096, add eps, rsqrt)
    the normalised entry                         rowNorm row d
    the peak                                     rowPeak row              (a host maximum from -infinity, then max
                                                                           with eps; max is commutative)
    the scale                                    rowScale row = 127 / peak
    the code                                     rowQ row d               (the clip's integer bounds 127 and -128,
                                                                           converted to floats, are the float
                                                                           literals 127.0 and -128.0)
    the result                                   outR row (column f of the signs) (the weight scale)
  where the signs are sign(K - mean K) and the weight scale is max(eps, mean |K|), both functions of the weights only.
  Every sign is -1, 0 or 1; on finite weights the weight scale is a real number at least eps, hence positive.
-/
import proofs.«419115_j29557964931127_3_alg».proof.Proof.RefRead
import proofs.«419115_j29557964931127_3_alg».proof.Proof.RowSpec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.PatchedRead
open Idealize.ShloMosaic Idealize.ShloMosaic.ValueIdx Cert.BitLinear

/-- The one index of a unit axis. -/
abbrev u1 : Fin 1 := ⟨0, Nat.one_pos⟩

variable (x0 : FVec Ideal S8x4096x4096 .f32)

/-- The row (b, s, .) of the activations. -/
abbrev row (b : Fin 8) (s : Fin 4096) : Fin 4096 → EReal := fun k => x0 (ix3 b s k)

theorem sumsq_apply (b : Fin 8) (s : Fin 4096) :
    val_main_v1 (F := Ideal) x0 (ix2 b s) = ∑ k, row x0 b s k * row x0 b s k := by
  rw [val_main_v1_apply]
  show Ideal.ofBits .f32 0x00000000#32 + _ = _
  rw [Ideal.ofBits_zero_f32, zero_add]
  refine Finset.sum_congr rfl fun k _ => ?_
  show x0 (idx_main_v1 (ix2 b s) k) * x0 (idx_main_v1 (ix2 b s) k) = _
  rw [show idx_main_v1 (ix2 b s) k = ix3 b s k from funext fun a => Fin.ext (by match a with | ⟨0, _⟩ => rfl | ⟨1, _⟩ => rfl | ⟨2, _⟩ => rfl)]

theorem rs_apply (b : Fin 8) (s : Fin 4096) :
    val_main_v7 (F := Ideal) x0 (ix3 b s u1) = rowRs (row x0 b s) := by
  show Ideal.rsqrt (Ideal.div (val_main_v2 (F := Ideal) x0 (ix3 b s u1)) (val_main_v3 (F := Ideal) (ix3 b s u1))
    + val_main_v5 (F := Ideal) (ix3 b s u1)) = _
  rw [val_main_v2_apply, val_main_v3_apply, val_main_v5_apply,
    show idx_main_v2 (ix3 b s u1) = ix2 b s from funext fun a => Fin.ext (by match a with | ⟨0, _⟩ => rfl | ⟨1, _⟩ => rfl), sumsq_apply]
  rfl

theorem norm_apply (b : Fin 8) (s : Fin 4096) (d : Fin 4096) :
    val_main_v9 (F := Ideal) x0 (ix3 b s d) = rowNorm (row x0 b s) d := by
  show x0 (ix3 b s d) * val_main_v8 (F := Ideal) x0 (ix3 b s d) = _
  rw [val_main_v8_apply, show idx_main_v8 (ix3 b s d) = ix3 b s u1 from funext fun a => Fin.ext (by match a with | ⟨0, _⟩ => rfl | ⟨1, _⟩ => rfl | ⟨2, _⟩ => rfl), rs_apply]
  rfl

/-- A host maximum over the last axis from an initial value, at (b, s): the fold of max from that value over the
    entries (b, s, k), for any operand and initial value. -/
theorem host_rowmax (y : FVec Ideal S8x4096x4096 .f32) (init : FVec Ideal S_ .f32) (b : Fin 8) (s : Fin 4096) :
    Host.reduce FloatOps.maximumf y init reducesTo_S8x4096x4096_S8x4096_d2 h_S_ (ix2 b s)
      = (Finset.univ : Finset (Fin 4096)).fold max (init (Shape.Idx.first h_S_)) (fun k => y (ix3 b s k)) := by
  have hred : S8x4096x4096.Reduces [2] S8x4096 := by decide
  rw [Host.reduce_eq_fold_single FloatOps.maximumf y init reducesTo_S8x4096x4096_S8x4096_d2 hred h_S_ (ix2 b s)]
  refine congrArg (fun g => (Finset.univ : Finset (Fin 4096)).fold max (init (Shape.Idx.first h_S_)) g)
    (funext fun k => congrArg y ?_)
  exact funext fun a => Fin.ext (by match a with | ⟨0, _⟩ => rfl | ⟨1, _⟩ => rfl | ⟨2, _⟩ => rfl)

/-! The constants of the chain: a literal spread over an array reads, at every index, that literal. -/

/-- The floor of the peak, spread over the rows: eps. -/
theorem eps_col (i : S8x4096x1.Idx) : val_main_call0_v1 (F := Ideal) i = Ideal.ofBits .f32 0x3727C5AC#32 := by
  rw [val_main_call0_v1_apply, val_main_call0_v0_apply, val_main_cst_3_apply, Ideal.ofBits_def]

/-- The start of the running maximum: -infinity. -/
theorem neg_inf_init : val_main_cst_2 (F := Ideal) (Shape.Idx.first h_S_) = Ideal.ofBits .f32 0xFF800000#32 := by
  rw [val_main_cst_2_apply, Ideal.ofBits_def]

/-- The numerator of the scale, spread over the rows: 127. -/
theorem qmax_col (i : S8x4096x1.Idx) : val_main_v14 (F := Ideal) i = Ideal.ofBits .f32 0x42FE0000#32 := by
  rw [val_main_v14_apply, val_main_cst_4_apply, Ideal.ofBits_def]

theorem peak_apply (b : Fin 8) (s : Fin 4096) :
    val_main_v13 (F := Ideal) x0 (ix3 b s u1) = rowPeak (row x0 b s) := by
  rw [val_main_v13_apply, eps_col, val_main_v12_apply, show idx_main_v12 (ix3 b s u1) = ix2 b s from funext fun a => Fin.ext (by match a with | ⟨0, _⟩ => rfl | ⟨1, _⟩ => rfl)]
  unfold val_main_v11
  rw [host_rowmax, neg_inf_init]
  unfold rowPeak
  show max (Ideal.ofBits .f32 0x3727C5AC#32) _ = _
  rw [max_comm]
  refine congrArg (fun t => max t (Ideal.ofBits .f32 0x3727C5AC#32)) ?_
  refine congrArg (fun g => (Finset.univ : Finset (Fin 4096)).fold max (Ideal.ofBits .f32 0xFF800000#32) g) (funext fun k => ?_)
  rw [val_main_v10_apply, Ideal.hostAbsf_def, Ideal.absf_def, norm_apply]

theorem scale_apply (b : Fin 8) (s : Fin 4096) :
    val_main_v15 (F := Ideal) x0 (ix3 b s u1) = rowScale (row x0 b s) := by
  rw [val_main_v15_apply, qmax_col, peak_apply, Ideal.hostDivf_def]
  unfold rowScale
  rfl

/-- The clip's upper bound, the integer 127 converted, is the float literal 127.0; -/
theorem upper_bound : FloatOps.sitofp (F := Ideal) .f32 (127#32 : BitVec 32) = Ideal.ofBits .f32 0x42FE0000#32 := by
  show (((127#32 : BitVec 32).toInt : ℝ) : EReal) = _
  rw [ofBits_qmax, show (127#32 : BitVec 32).toInt = 127 from by decide]
  norm_num

/-- and its lower bound, the integer -128 converted, is the float literal -128.0. -/
theorem lower_bound : FloatOps.sitofp (F := Ideal) .f32 (4294967168#32 : BitVec 32) = Ideal.ofBits .f32 0xC3000000#32 := by
  show (((4294967168#32 : BitVec 32).toInt : ℝ) : EReal) = _
  rw [ofBits_qmin, show (4294967168#32 : BitVec 32).toInt = -128 from by decide]
  norm_num

/-- The upper bound spread over the array, -/
theorem upper_at (i : S8x4096x4096.Idx) : val_main_call2_v4 (F := Ideal) i = Ideal.ofBits .f32 0x42FE0000#32 := by
  rw [val_main_call2_v4_apply, val_main_call2_v3_apply, val_main_c_apply, upper_bound]

/-- and the lower. -/
theorem lower_at (i : S8x4096x4096.Idx) : val_main_call2_v1 (F := Ideal) i = Ideal.ofBits .f32 0xC3000000#32 := by
  rw [val_main_call2_v1_apply, val_main_call2_v0_apply, val_main_c_5_apply, lower_bound]

theorem code_apply (b : Fin 8) (s : Fin 4096) (d : Fin 4096) :
    val_main_v19 (F := Ideal) x0 (ix3 b s d) = rowQ (row x0 b s) d := by
  rw [val_main_v19_apply, upper_at, val_main_call2_v2_apply, lower_at, val_main_v18_apply, val_main_v17_apply,
    val_main_v16_apply, show idx_main_v16 (ix3 b s d) = ix3 b s u1 from funext fun a => Fin.ext (by match a with | ⟨0, _⟩ => rfl | ⟨1, _⟩ => rfl | ⟨2, _⟩ => rfl), norm_apply, scale_apply,
    Ideal.hostUnary_roundeven_def]
  unfold rowQ
  rfl

/-- The reference's result at (b, s, f). -/
theorem out_apply (x1 : FVec Ideal S4096x4096 .f32) (b : Fin 8) (s : Fin 4096) (f : Fin 4096) :
    val_main_v37 (F := Ideal) x0 x1 (ix3 b s f)
      = outR (row x0 b s) (fun d => val_main_v30 (F := Ideal) x1 (ix2 d f)) (val_main_v25 (F := Ideal) x1 ix0) := by
  rw [val_main_v37_apply, val_main_v35_apply, val_main_v33_apply, val_main_v34_apply, val_main_v36_apply,
    show idx_main_v36 (ix3 b s f) = ix3 b s u1 from funext fun a => Fin.ext (by match a with | ⟨0, _⟩ => rfl | ⟨1, _⟩ => rfl | ⟨2, _⟩ => rfl), scale_apply,
    show idx_main_v34 (ix3 b s f) = ix0 from funext fun a => a.elim0, Ideal.hostDivf_def, Ideal.hostDivf_def]
  unfold outR
  refine congrArg (fun t => Ideal.div (Ideal.div t (val_main_v25 (F := Ideal) x1 ix0)) (rowScale (row x0 b s)))
    (Finset.sum_congr rfl fun k _ => ?_)
  rw [show lidx_main_v33 (ix3 b s f) k = ix3 b s k from funext fun a => Fin.ext (by match a with | ⟨0, _⟩ => rfl | ⟨1, _⟩ => rfl | ⟨2, _⟩ => rfl),
    show ridx_main_v33 (ix3 b s f) k = ix2 k f from funext fun a => Fin.ext (by match a with | ⟨0, _⟩ => rfl | ⟨1, _⟩ => rfl),
    val_main_v21_apply, code_apply, val_main_v20_apply, show idx_main_v20 (ix3 b s k) = ix3 b s u1 from funext fun a => Fin.ext (by match a with | ⟨0, _⟩ => rfl | ⟨1, _⟩ => rfl | ⟨2, _⟩ => rfl),
    scale_apply, val_main_v32_apply, val_main_v31_apply, show idx_main_v31 (ix2 k f) = ix0 from funext fun a => a.elim0,
    Ideal.hostDivf_def]
  rfl

/-! ## The weight side -/

/-- The coercion of the reals into the extended reals commutes with max. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A sign is -1, 0 or 1: a real number. -/
theorem sign_real (a : EReal) : ∃ r : ℝ, Ideal.sign a = r := by
  rcases lt_trichotomy a 0 with h | h | h
  · exact ⟨-1, by rw [Ideal.sign_of_neg h]; norm_num⟩
  · exact ⟨0, by rw [h, Ideal.sign_zero]; norm_num⟩
  · exact ⟨1, by rw [Ideal.sign_of_pos h]; norm_num⟩

/-- Every entry of the reference's sign matrix is a real number. -/
theorem signs_real (x1 : FVec Ideal S4096x4096 .f32) (j : S4096x4096.Idx) :
    ∃ r : ℝ, val_main_v30 (F := Ideal) x1 j = r :=
  sign_real _

/-- On finite weights the weight scale max(eps, mean |K|) is a positive real. -/
theorem wscale_pos (x1 : FVec Ideal S4096x4096 .f32) (hx : ∀ j, ∃ r : ℝ, x1 j = r) :
    ∃ r : ℝ, 0 < r ∧ val_main_v25 (F := Ideal) x1 ix0 = r := by
  choose kr hkr using hx
  have hsum : val_main_v23 (F := Ideal) x1 ix0 = ((∑ j, |kr j| : ℝ) : EReal) := by
    rw [val_main_v23_apply]
    show Ideal.ofBits .f32 0x00000000#32 + ∑ j : S4096x4096.Idx, max (x1 j) (-(x1 j)) = _
    rw [Ideal.ofBits_zero_f32, zero_add, ← coe_sum]
    refine Finset.sum_congr rfl fun j _ => ?_
    rw [hkr j, ← EReal.coe_neg, coe_max, ← abs_eq_max_neg]
  have hmean : val_main_v24 (F := Ideal) x1 ix0 = (((∑ j, |kr j|) * (1 / 16777216) : ℝ) : EReal) := by
    show Ideal.div (val_main_v23 (F := Ideal) x1 ix0) (Ideal.ofBits .f32 0x4B800000#32) = _
    rw [hsum, ofBits_weight_count, Ideal.div_coe (by norm_num : (16777216 : ℝ) ≠ 0), ← EReal.coe_mul]
  refine ⟨max epsR ((∑ j, |kr j|) * (1 / 16777216)), lt_of_lt_of_le epsR_pos (le_max_left _ _), ?_⟩
  show max (Ideal.ofBits .f32 0x3727C5AC#32) (val_main_v24 (F := Ideal) x1 ix0) = _
  rw [hmean, ofBits_eps, coe_max]

end Cert.ReferenceIdeal.RefValue

end
-- ==== Proof.FiniteInputs.lean ====
/-
  What the precondition says: every entry of the activations and of the weights is a real number.

  The precondition is "all |x| < +infinity and all |w| < +infinity", each "all" a reduction by "and" from 1 over
  every index, the two joined by "and".  If the result is 1 then each comparison is 1 at every index; and an
  extended real whose magnitude max(x, -x) is strictly below the top element is neither infinity, hence a real.
-/
import proofs.«419115_j29557964931127_3_alg».proof.Pre_finite_inputs
import Idealize.ShloMosaic.Lib.ReduceAll
import Idealize.ShloMosaic.Lib.ValueIdx
import Idealize.ShloMosaic.PureOps.Ideal

noncomputable section

namespace Cert.BitLinear

open Idealize.ShloMosaic Idealize.ShloMosaic.ValueIdx

/-- An extended real whose magnitude compares strictly below +infinity is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- Under the precondition both argument arrays hold real numbers only. -/
theorem finite_of_pre [Cert.Pre_finite_inputs.Facts]
    (x : FVec Ideal Cert.Pre_finite_inputs.S8x4096x4096 .f32) (k : FVec Ideal Cert.Pre_finite_inputs.S4096x4096 .f32)
    (h : Cert.Pre_finite_inputs.fn (F := Ideal) x k = fun _ => 1#1) :
    (∀ i, ∃ r : ℝ, x i = r) ∧ (∀ j, ∃ r : ℝ, k j = r) := by
  have h0 := congrFun h ix0
  dsimp only [Cert.Pre_finite_inputs.fn] at h0
  obtain ⟨hx, hk⟩ := IntOp.andi_eq_one.1 h0
  haveI : Subsingleton Cert.Pre_finite_inputs.S_.Idx := ⟨fun a b => funext fun d => d.elim0⟩
  refine ⟨fun i => ?_, fun j => ?_⟩
  · exact real_of_abs_lt_inf _ (Host.reduce_andi_all _ _ _ _ _ hx i)
  · exact real_of_abs_lt_inf _ (Host.reduce_andi_all _ _ _ _ _ hk j)

end Cert.BitLinear

end
-- ==== Proof.Claims.lean ====
/-
  The five claims.

  Frames.  The kernel and its idealization run to completion with their arguments unchanged: the generated frame
  certificates.  The reference does too: its run, with the statement about its result dropped.

  Idealization.  The idealized kernel differs from the kernel in one constant, written at four places (once per chunk
  of 128 rows): the literal 6.20001229e-5 is read as the fraction 1/16129 = 1/127^2 it is the rounding of.

  Equivalence.  At (b, s, f), with row = x (b, s, .):
    the idealized kernel ends at      outK row (column f of the signs)                 = (sum_d q_d s_d) * peak^2/16129
    the idealized reference ends at   outR row (column f of the signs) (weight scale)  = ((sum_d (q_d/scale)(s_d ws))/ws)/scale
  with the same codes q, the same signs s = sign(K - mean K) (one sequence of host operations in both programs), and
  scale = 127/peak.  On finite inputs the row is finite, every sign is a real and the weight scale ws is a positive real,
  so the two agree (the row specification's law).  Finiteness is what the precondition provides.
-/
import proofs.«419115_j29557964931127_3_alg».proof.Defs
import proofs.«419115_j29557964931127_3_alg».proof.Proof.Gen.Kernel.Frame
import proofs.«419115_j29557964931127_3_alg».proof.Proof.Gen.Pre_finite_inputs
import proofs.«419115_j29557964931127_3_alg».proof.Proof.KernelValue
import proofs.«419115_j29557964931127_3_alg».proof.Proof.RefValue
import proofs.«419115_j29557964931127_3_alg».proof.Proof.FiniteInputs
import Idealize.ShloMosaic.PureOps.IdealRules

noncomputable section

namespace Cert.Proof.Claims

open Idealize.ShloMosaic Idealize.ShloMosaic.TcCoe Idealize.SL.Sem Idealize.ShloMosaic.ValueIdx Cert.BitLinear

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2)
    (Cert.ReferenceIdeal.PatchedValue.run (F := Ideal) m ρ)

/-- The one renamed constant, at its four sites: the name denotes 1/16129, and the printed constant is that value. -/
theorem preserves : Cert.preserves_Kernel_KernelIdeal :=
  have s := IdealRules.named_const.statement Cert.KernelIdeal.κ "inv_16129" .f32 0x38820610#32 ((1 / 16129 : ℝ) : EReal) rfl
  ⟨s, s, s, s⟩

/-- Both programs compute the signs by the same host operations: one function of the weights. -/
theorem signs_same (K : FVec Ideal Cert.KernelIdeal.S4096x4096 .f32) (d f : Fin 4096) :
    Cert.KernelIdeal.ChainValue.signsOf K (ix2 d f)
      = Cert.ReferenceIdeal.PatchedRead.val_main_v30 (F := Ideal) K (ix2 d f) := rfl

theorem algebraic : Cert.algebraic_KernelIdeal_ReferenceIdeal := by
  intro m ρ m' ρ' hpre hagree
  refine ⟨fun c => Cert.KernelIdeal.Gen.W4 m ρ c (Proc.devRef .tc Cert.KernelIdeal.main_v9),
    Cert.KernelIdeal.RunValue.run_main (F := Ideal) m ρ, ?_⟩
  refine (θ_run Cert.ReferenceIdeal.defs _ _).mono (fun r h c => ⟨?_, (h c).2⟩)
    (Cert.ReferenceIdeal.PatchedValue.run (F := Ideal) m' ρ')
  rw [(h c).1, Cert.ReferenceIdeal.PatchedRead.val_main_v37_eq, (hagree c).1, (hagree c).2]
  obtain ⟨hx, hk⟩ := finite_of_pre _ _ (hpre c)
  funext i
  obtain ⟨b, s, f, rfl⟩ : ∃ (b : Fin 8) (s : Fin 4096) (f : Fin 4096), i = ix3 b s f := ⟨i 0, i 1, i 2, eq_ix3 i⟩
  refine (Cert.ReferenceIdeal.RefValue.out_apply _ _ b s f).trans ?_
  refine (outR_eq_outK _ _ _ (fun k => hx _) (fun d => Cert.ReferenceIdeal.RefValue.signs_real _ _)
    (Cert.ReferenceIdeal.RefValue.wscale_pos _ hk)).trans ?_
  refine Eq.trans ?_ (Cert.KernelIdeal.ChainValue.result_apply m ρ c b s f).symm
  exact congrArg (outK _) (funext fun d => (signs_same _ d f).symm)

end Cert.Proof.Claims

end
-- ==== Proof.lean ====
/-
  A linear layer with sign weights and per-row 8-bit activations, computed by two kernels, against its reference.

  For activations x [8, 4096, 4096] and weights K [4096, 4096] the layer normalises each row of x by its root mean
  square, scales the row so that its largest magnitude (floored at eps) becomes 127, rounds half to even and clips to
  [-128, 127]; takes the sign of each weight against the mean of all weights; multiplies; and undoes the scales.
  The kernel quantises in one pass (codes and, per row, the reciprocal of the squared scale, peak^2 / 127^2) and
  multiplies codes by signs in a second pass, rescaling each row once.  The reference dequantises the codes, scales the
  signs by the mean absolute weight, multiplies, and divides by both scales afterwards.

  Over the extended reals, on finite inputs, the two are one function: the weight scale is a positive real and
  cancels, and dividing twice by 127 / peak is multiplying by peak^2 / 16129.  The kernel's constant for 1/16129 is
  read as that fraction (the one entry of the idealization, at the four places it is written).

  The modules: the literals' values; the row quantities and the law joining the two forms; what the precondition gives;
  the first kernel's arithmetic on a chunk of rows, then its two output arrays; the second kernel's arithmetic at an
  element, then its output array; the kernel's run and its result read back to the arguments; the reference's run,
  its stages read at an index and its result; the five claims.
-/
import proofs.«419115_j29557964931127_3_alg».proof.Defs
import proofs.«419115_j29557964931127_3_alg».proof.Proof.Gen.Kernel
import proofs.«419115_j29557964931127_3_alg».proof.Proof.Gen.Kernel.Skeleton
import proofs.«419115_j29557964931127_3_alg».proof.Proof.Gen.Kernel.Launch
import proofs.«419115_j29557964931127_3_alg».proof.Proof.Gen.Kernel.Points
import proofs.«419115_j29557964931127_3_alg».proof.Proof.Gen.Kernel.Frame
import proofs.«419115_j29557964931127_3_alg».proof.Proof.Gen.KernelIdeal
import proofs.«419115_j29557964931127_3_alg».proof.Proof.Gen.KernelIdeal.Skeleton
import proofs.«419115_j29557964931127_3_alg».proof.Proof.Gen.KernelIdeal.Launch
import proofs.«419115_j29557964931127_3_alg».proof.Proof.Gen.KernelIdeal.Points
import proofs.«419115_j29557964931127_3_alg».proof.Proof.Gen.KernelIdeal.Frame
import proofs.«419115_j29557964931127_3_alg».proof.Proof.Gen.ReferenceIdeal
import proofs.«419115_j29557964931127_3_alg».proof.Proof.Gen.Pre_finite_inputs
import proofs.«419115_j29557964931127_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
